-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x365x512 : Shape := ⟨3, ![256, 365, 512]⟩
abbrev S256x365 : Shape := ⟨2, ![256, 365]⟩
abbrev S365x512 : Shape := ⟨2, ![365, 512]⟩
abbrev S_ : Shape := ⟨0, ![]⟩

class Facts : Prop where
  bcast_S_S256x365x512 : S_.BroadcastsInDim S256x365x512 (![] : Fin 0 → Fin S256x365x512.rank)
  reducesTo_S256x365x512_S_d0_1_2 : S256x365x512.ReducesTo [0, 1, 2] S_
  h_S_ : 0 < S_.numel
  bcast_S_S365x512 : S_.BroadcastsInDim S365x512 (![] : Fin 0 → Fin S365x512.rank)
  reducesTo_S365x512_S_d0_1 : S365x512.ReducesTo [0, 1] S_
  bcast_S_S256x365 : S_.BroadcastsInDim S256x365 (![] : Fin 0 → Fin S256x365.rank)
  reducesTo_S256x365_S_d0_1 : S256x365.ReducesTo [0, 1] S_

variable [Facts]

def fn {F : FTy → Type} [FloatOps F] (main_arg0 : FVec F S256x365x512 .f32) (main_arg1 : IVec S256x365 32) (main_arg2 : FVec F S365x512 .f32) : IVec S_ 1 :=
  let main_v0 : FVec F S256x365x512 .f32 := Host.absf main_arg0
  let main_cst : FVec F S_ .f32 := constant S_ .f32 0x7F800000#32
  let main_v1 : FVec F S256x365x512 .f32 := broadcastInDim S256x365x512 ![] bcast_S_S256x365x512 main_cst
  let main_v2 : IVec S256x365x512 1 := cmpf .olt main_v0 main_v1
  let main_c : IVec S_ 1 := constantI S_ 1 1#1
  let main_v3 : IVec S_ 1 := (fun x v => Host.reduce IntOp.andi x v reducesTo_S256x365x512_S_d0_1_2 h_S_) main_v2 main_c
  let main_v4 : FVec F S365x512 .f32 := Host.absf main_arg2
  let main_cst_0 : FVec F S_ .f32 := constant S_ .f32 0x7F800000#32
  let main_v5 : FVec F S365x512 .f32 := broadcastInDim S365x512 ![] bcast_S_S365x512 main_cst_0
  let main_v6 : IVec S365x512 1 := cmpf .olt main_v4 main_v5
  let main_c_1 : IVec S_ 1 := constantI S_ 1 1#1
  let main_v7 : IVec S_ 1 := (fun x v => Host.reduce IntOp.andi x v reducesTo_S365x512_S_d0_1 h_S_) main_v6 main_c_1
  let main_v8 : IVec S_ 1 := andi main_v3 main_v7
  let main_c_2 : IVec S_ 32 := constantI S_ 32 365#32
  let main_v9 : IVec S256x365 32 := broadcastInDim S256x365 ![] bcast_S_S256x365 main_c_2
  let main_v10 : IVec S256x365 1 := cmpi .slt main_arg1 main_v9
  let main_c_3 : IVec S_ 1 := constantI S_ 1 1#1
  let main_v11 : IVec S_ 1 := (fun x v => Host.reduce IntOp.andi x v reducesTo_S256x365_S_d0_1 h_S_) main_v10 main_c_3
  let main_v12 : IVec S_ 1 := andi main_v8 main_v11
  main_v12
-- ==== Kernel.lean ====
abbrev S256x365x512 : Shape := ⟨3, ![256, 365, 512]⟩
abbrev S256x365 : Shape := ⟨2, ![256, 365]⟩
abbrev S365x512 : Shape := ⟨2, ![365, 512]⟩
abbrev S8x365x512 : Shape := ⟨3, ![8, 365, 512]⟩
abbrev S8x365 : Shape := ⟨2, ![8, 365]⟩
abbrev S365x365 : Shape := ⟨2, ![365, 365]⟩
abbrev S1x365 : Shape := ⟨2, ![1, 365]⟩
abbrev S365 : Shape := ⟨1, ![365]⟩
abbrev S365x1 : Shape := ⟨2, ![365, 1]⟩
abbrev S1x365x512 : Shape := ⟨3, ![1, 365, 512]⟩

abbrev nBuf : Space → Nat
  | .hbm => 5
  | .vmem => 7
  | .smem => 0
  | _ => 0

abbrev bufTy : (tb : Table) → Fin (tcTables nBuf tb) → BufTy
  | .hbm, ⟨0, _⟩ => ⟨S256x365x512, .f32⟩
  | .hbm, ⟨1, _⟩ => ⟨S256x365, .i32⟩
  | .hbm, ⟨2, _⟩ => ⟨S365x512, .f32⟩
  | .hbm, ⟨3, _⟩ => ⟨S365x512, .bf16⟩
  | .hbm, ⟨4, _⟩ => ⟨S256x365x512, .f32⟩
  | .local _ .vmem, ⟨0, _⟩ => ⟨S8x365x512, .f32⟩
  | .local _ .vmem, ⟨1, _⟩ => ⟨S8x365x512, .f32⟩
  | .local _ .vmem, ⟨2, _⟩ => ⟨S8x365, .i32⟩
  | .local _ .vmem, ⟨3, _⟩ => ⟨S8x365, .i32⟩
  | .local _ .vmem, ⟨4, _⟩ => ⟨S365x512, .bf16⟩
  | .local _ .vmem, ⟨5, _⟩ => ⟨S8x365x512, .f32⟩
  | .local _ .vmem, ⟨6, _⟩ => ⟨S8x365x512, .f32⟩
  | _, _ => ⟨S256x365x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x365x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x365 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S365x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x365x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  iota_S365x365_d1_w32 : S365x365.Iotas .tc 32 [1]
  inb_S365x512_S365x512_0_0 : ∀ a, (![0, 0] : Fin 2 → Nat) a + S365x512.size a ≤ S365x512.size a
  h_S365x512 : 0 < S365x512.numel
  shapeCasts_S365x512_S365x512 : S365x512.ShapeCasts S365x512
  inb_S8x365_S1x365_0_0 : ∀ a, (![0, 0] : Fin 2 → Nat) a + S1x365.size a ≤ S8x365.size a
  h_S1x365 : 0 < S1x365.numel
  shapeCasts_S1x365_S365 : S1x365.ShapeCasts S365
  shapeCasts_S365_S365x1 : S365.ShapeCasts S365x1
  broadcasts_S365x1_S365x365 : S365x1.Broadcasts S365x365
  natLt_1_32 : 1 < 32
  inb_S8x365x512_S1x365x512_0_0_0 : ∀ a, (![0, 0, 0] : Fin 3 → Nat) a + S1x365x512.size a ≤ S8x365x512.size a
  h_S1x365x512 : 0 < S1x365x512.numel
  shapeCasts_S1x365x512_S365x512 : S1x365x512.ShapeCasts S365x512
  shapeCasts_S365x512_S1x365x512 : S365x512.ShapeCasts S1x365x512
  inb_S8x365_S1x365_1_0 : ∀ a, (![1, 0] : Fin 2 → Nat) a + S1x365.size a ≤ S8x365.size a
  inb_S8x365x512_S1x365x512_1_0_0 : ∀ a, (![1, 0, 0] : Fin 3 → Nat) a + S1x365x512.size a ≤ S8x365x512.size a
  inb_S8x365_S1x365_2_0 : ∀ a, (![2, 0] : Fin 2 → Nat) a + S1x365.size a ≤ S8x365.size a
  inb_S8x365x512_S1x365x512_2_0_0 : ∀ a, (![2, 0, 0] : Fin 3 → Nat) a + S1x365x512.size a ≤ S8x365x512.size a
  inb_S8x365_S1x365_3_0 : ∀ a, (![3, 0] : Fin 2 → Nat) a + S1x365.size a ≤ S8x365.size a
  inb_S8x365x512_S1x365x512_3_0_0 : ∀ a, (![3, 0, 0] : Fin 3 → Nat) a + S1x365x512.size a ≤ S8x365x512.size a
  inb_S8x365_S1x365_4_0 : ∀ a, (![4, 0] : Fin 2 → Nat) a + S1x365.size a ≤ S8x365.size a
  inb_S8x365x512_S1x365x512_4_0_0 : ∀ a, (![4, 0, 0] : Fin 3 → Nat) a + S1x365x512.size a ≤ S8x365x512.size a
  inb_S8x365_S1x365_5_0 : ∀ a, (![5, 0] : Fin 2 → Nat) a + S1x365.size a ≤ S8x365.size a
  inb_S8x365x512_S1x365x512_5_0_0 : ∀ a, (![5, 0, 0] : Fin 3 → Nat) a + S1x365x512.size a ≤ S8x365x512.size a
  inb_S8x365_S1x365_6_0 : ∀ a, (![6, 0] : Fin 2 → Nat) a + S1x365.size a ≤ S8x365.size a
  inb_S8x365x512_S1x365x512_6_0_0 : ∀ a, (![6, 0, 0] : Fin 3 → Nat) a + S1x365x512.size a ≤ S8x365x512.size a
  inb_S8x365_S1x365_7_0 : ∀ a, (![7, 0] : Fin 2 → Nat) a + S1x365.size a ≤ S8x365.size a
  inb_S8x365x512_S1x365x512_7_0_0 : ∀ a, (![7, 0, 0] : Fin 3 → Nat) a + S1x365x512.size a ≤ S8x365x512.size a
  dot_S365x365_S365x512_S365x512_1_0_0_1_n_n_wf : DotDims.WF S365x365 S365x512 S365x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x365x512.size a ≤ S256x365x512.size a
  hwx0_0 : ∀ i : grid0.Coords, EltTy.bits .f32 = 32 ∨ (Rect.block (s := S256x365x512) S8x365x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x365.size a ≤ S256x365.size a
  hwx0_1 : ∀ i : grid0.Coords, EltTy.bits .i32 = 32 ∨ (Rect.block (s := S256x365) S8x365.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S365x512.size a ≤ S365x512.size a
  hwx0_2 : ∀ i : grid0.Coords, EltTy.bits .bf16 = 32 ∨ (Rect.block (s := S365x512) S365x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x365x512.size a ≤ S256x365x512.size a
  hwx0_3 : ∀ i : grid0.Coords, EltTy.bits .f32 = 32 ∨ (Rect.block (s := S256x365x512) S8x365x512.size (cc0_transform_3 i) (hinb0_3 i)).WholeWords (EltTy.packing .f32)

variable [Facts₀]

def dot_S365x365_S365x512_S365x512_1_0_0_1_n_n : DotDims S365x365 S365x512 S365x512 where
  lhsContracting := [1]
  rhsContracting := [0]
  lhsNonContracting := [0]
  rhsNonContracting := [1]
  lhsBatch := []
  rhsBatch := []
  wf := dot_S365x365_S365x512_S365x512_1_0_0_1_n_n_wf

abbrev win0_0 : Pipeline.Window sig grid0 :=
  Pipeline.Window.ofSpec (Memref.whole main_arg0) S8x365x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x365.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S365x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x365x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x365x512 : Shape := ⟨3, ![256, 365, 512]⟩
abbrev S256x365 : Shape := ⟨2, ![256, 365]⟩
abbrev S365x512 : Shape := ⟨2, ![365, 512]⟩
abbrev S_ : Shape := ⟨0, ![]⟩
abbrev S256x365x1 : Shape := ⟨3, ![256, 365, 1]⟩

abbrev nBuf : Space → Nat
  | .hbm => 24
  | .vmem => 0
  | .smem => 0
  | _ => 0

abbrev bufTy : (tb : Table) → Fin (tcTables nBuf tb) → BufTy
  | .hbm, ⟨0, _⟩ => ⟨S256x365x512, .f32⟩
  | .hbm, ⟨1, _⟩ => ⟨S256x365, .i32⟩
  | .hbm, ⟨2, _⟩ => ⟨S365x512, .f32⟩
  | .hbm, ⟨3, _⟩ => ⟨S_, .i32⟩
  | .hbm, ⟨4, _⟩ => ⟨S256x365, .i32⟩
  | .hbm, ⟨5, _⟩ => ⟨S256x365, .i1⟩
  | .hbm, ⟨6, _⟩ => ⟨S_, .i32⟩
  | .hbm, ⟨7, _⟩ => ⟨S_, .i32⟩
  | .hbm, ⟨8, _⟩ => ⟨S256x365, .i32⟩
  | .hbm, ⟨9, _⟩ => ⟨S256x365, .i32⟩
  | .hbm, ⟨10, _⟩ => ⟨S_, .i32⟩
  | .hbm, ⟨11, _⟩ => ⟨S256x365, .i32⟩
  | .hbm, ⟨12, _⟩ => ⟨S256x365, .i1⟩
  | .hbm, ⟨13, _⟩ => ⟨S_, .i32⟩
  | .hbm, ⟨14, _⟩ => ⟨S256x365, .i32⟩
  | .hbm, ⟨15, _⟩ => ⟨S256x365, .i32⟩
  | .hbm, ⟨16, _⟩ => ⟨S256x365, .i32⟩
  | .hbm, ⟨17, _⟩ => ⟨S256x365x1, .i32⟩
  | .hbm, ⟨18, _⟩ => ⟨S256x365x512, .f32⟩
  | .hbm, ⟨19, _⟩ => ⟨S256x365x1, .i1⟩
  | .hbm, ⟨20, _⟩ => ⟨S256x365x1, .f32⟩
  | .hbm, ⟨21, _⟩ => ⟨S256x365x512, .f32⟩
  | .hbm, ⟨22, _⟩ => ⟨S256x365x512, .f32⟩
  | .hbm, ⟨23, _⟩ => ⟨S256x365x512, .f32⟩
  | _, _ => ⟨S256x365x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S256x365 : S_.BroadcastsInDim S256x365 (![] : Fin 0 → Fin S256x365.rank)
  bcast_S256x365_S256x365x1_0_1 : S256x365.BroadcastsInDim S256x365x1 (![0, 1] : Fin 2 → Fin S256x365x1.rank)
  bcast_S256x365x1_S256x365x512_0_1_2 : S256x365x1.BroadcastsInDim S256x365x512 (![0, 1, 2] : Fin 3 → Fin S256x365x512.rank)
  gather_S365x512_S256x365x1_S256x365x512_2_0_n_n_0_2_1512_wf : GatherDims.WF S365x512 S256x365x1 S256x365x512 [2] [0] [] [0] [] 2 ![1, 512]

variable [Facts₀]

def gather_S365x512_S256x365x1_S256x365x512_2_0_n_n_0_2_1512 : GatherDims S365x512 S256x365x1 S256x365x512 where
  offsetDims := [2]
  collapsedSliceDims := [0]
  operandBatchingDims := []
  startIndicesBatchingDims := []
  startIndexMap := [0]
  indexVectorDim := 2
  sliceSizes := ![1, 512]
  wf := gather_S365x512_S256x365x1_S256x365x512_2_0_n_n_0_2_1512_wf

class Facts : Prop extends Facts₀ where

variable [Facts]
-- ==== Proof.PosRange.lean ====
/-
  What the precondition says of the positions: every position word, read signed, is below 365.

  The precondition is the conjunction of three "all" reductions; its last conjunct is the
  reduction by "and" of the array of bits "position < 365" (signed). A conjunction of bits that
  is 1 has both bits 1, and an "and"-reduction over every axis that is 1 met a 1 at every index.
-/
import proofs.«410127_j80659485819003_1_alg».proof.Pre_finite_inputs
import Idealize.ShloMosaic.Lib.ReduceAll
import Idealize.ShloMosaic.Lib.ValueIdx

noncomputable section

namespace Cert.PosEnc

open Idealize.ShloMosaic Idealize.ShloMosaic.ValueIdx Cert.Pre_finite_inputs

instance : Subsingleton S_.Idx := ⟨fun a b => funext fun d => d.elim0⟩

/-- Under the precondition every position is below 365 as a signed integer. -/
theorem pos_lt [Cert.Pre_finite_inputs.Facts] {F : FTy → Type} [FloatOps F]
    (a0 : FVec F S256x365x512 .f32) (a1 : IVec S256x365 32) (a2 : FVec F S365x512 .f32)
    (h : Cert.Pre_finite_inputs.fn (F := F) a0 a1 a2 = fun _ => 1#1) (i : S256x365.Idx) :
    (a1 i).toInt < 365 := by
  have h1 := congrFun h ix0
  dsimp only [Cert.Pre_finite_inputs.fn] at h1
  have h2 := (IntOp.andi_eq_one.1 h1).2
  have h3 := Host.reduce_andi_all _ _ _ _ _ h2 i
  have h4 := IntOp.cmpi_slt.1 h3
  have hc : (365#32 : BitVec 32).toInt = 365 := by decide
  exact hc ▸ h4

end Cert.PosEnc

end
-- ==== Proof.OneHot.lean ====
/-
  Words and one-hot weights: the arithmetic that both programs' row selection comes down to.

  The kernel multiplies a 365 x 365 matrix of weights — weight (s, k) is the integer 1 when the
  row number k equals the position word of timestep s, and 0 otherwise — into the table. A sum
  over k of such weights times any family f is f at the position when the position is a row
  number (0 ≤ position < 365) and 0 otherwise (sum_hot).

  The reference clamps: it keeps a position that is ≥ 0, replaces a negative one by 0, gathers
  the table row at that index (a gather clamps its start index into [0, 364]) and multiplies by
  the 0/1 mask "position ≥ 0". For a position below 365 the index it reads is the position itself
  when the mask is 1 (ref_word).
-/
import Idealize.ShloMosaic.PureOps.Ideal
import Idealize.ShloMosaic.Lib.Affine
import Mathlib.Algebra.BigOperators.Group.Finset.Basic
import Mathlib.Data.EReal.Basic

noncomputable section

namespace Cert.PosEnc

open Idealize.ShloMosaic

/-- The weight the kernel gives table row k at a timestep whose position word is q: the bit
    "k = q" widened to 32 bits and read as a signed integer. -/
def hot (k : ℕ) (q : BitVec 32) : EReal :=
  ((((IntOp.cmpi .eq (BitVec.ofNat 32 k) q).setWidth 32).toInt : ℝ) : EReal)

theorem hot_eq (k : ℕ) (q : BitVec 32) : hot k q = if BitVec.ofNat 32 k = q then 1 else 0 := by
  unfold hot
  by_cases h : BitVec.ofNat 32 k = q
  · rw [if_pos h, IntOp.cmpi_eq.2 h]
    have : ((1#1 : BitVec 1).setWidth 32).toInt = 1 := by decide
    rw [this]; simp
  · rw [if_neg h]
    have h0 : IntOp.cmpi .eq (BitVec.ofNat 32 k) q = 0#1 := by
      have := (not_congr (IntOp.cmpi_eq (x := BitVec.ofNat 32 k) (y := q))).2 h
      revert this
      generalize IntOp.cmpi .eq (BitVec.ofNat 32 k) q = b
      revert b; decide
    rw [h0]
    have : ((0#1 : BitVec 1).setWidth 32).toInt = 0 := by decide
    rw [this]; simp

/-- A row number below 365 is its own 32-bit word's value. -/
theorem toNat_ofNat_row (k : Fin 365) : (BitVec.ofNat 32 k.val).toNat = k.val := by
  rw [BitVec.toNat_ofNat]
  exact Nat.mod_eq_of_lt (by have := k.isLt; omega)

/-- THE SELECTION: the one-hot weighted sum over the 365 rows picks the family's member at the
    position when the position is a row number, and is 0 when no row matches. -/
theorem sum_hot (f : Fin 365 → EReal) (q : BitVec 32) :
    ∑ k : Fin 365, hot k.val q * f k = if h : q.toNat < 365 then f ⟨q.toNat, h⟩ else 0 := by
  by_cases h : q.toNat < 365
  · rw [dif_pos h]
    rw [Finset.sum_eq_single (⟨q.toNat, h⟩ : Fin 365)]
    · rw [hot_eq, if_pos (BitVec.eq_of_toNat_eq (by rw [BitVec.toNat_ofNat]; exact Nat.mod_eq_of_lt (by omega))), one_mul]
    · intro k _ hk
      rw [hot_eq, if_neg, zero_mul]
      intro e
      apply hk
      apply Fin.ext
      have := congrArg BitVec.toNat e
      rw [toNat_ofNat_row] at this
      exact this
    · intro hn; exact absurd (Finset.mem_univ _) hn
  · rw [dif_neg h]
    refine Finset.sum_eq_zero fun k _ => ?_
    rw [hot_eq, if_neg, zero_mul]
    intro e
    apply h
    have := congrArg BitVec.toNat e
    rw [toNat_ofNat_row] at this
    have hk := k.isLt
    omega

/-- The position the reference keeps: itself when it is ≥ 0, else 0. -/
def safeWord (q : BitVec 32) : BitVec 32 := Scalar.select (IntOp.cmpi .sge q 0#32) q 0#32

/-- The start index the reference hands the gather: the kept position, wrapped by 365 were it negative (it never is). -/
def startWord (q : BitVec 32) : BitVec 32 :=
  Scalar.select (IntOp.cmpi .slt (safeWord q) 0#32) (IntOp.addi (safeWord q) 365#32) (safeWord q)

/-- What the reference reads for a position below 365: when the position is ≥ 0 the mask bit is 1,
    and the clamped start index is the position, a row number; when it is negative the mask bit is 0
    and the position is no row number. -/
theorem ref_word (q : BitVec 32) (hq : q.toInt < 365) :
    (IntOp.cmpi .sge q 0#32 = 1#1 ∧ min (startWord q).toInt.toNat (365 - 1) = q.toNat ∧ q.toNat < 365)
    ∨ (IntOp.cmpi .sge q 0#32 = 0#1 ∧ ¬ q.toNat < 365) := by
  by_cases h0 : (0#32 : BitVec 32).toInt ≤ q.toInt
  · left
    have hge : IntOp.cmpi .sge q 0#32 = 1#1 := IntOp.cmpi_sge.2 h0
    have hz : (0#32 : BitVec 32).toInt = 0 := by decide
    rw [hz] at h0
    have hs : safeWord q = q := by unfold safeWord; rw [hge]; exact if_pos rfl
    have hlt : IntOp.cmpi .slt q 0#32 ≠ 1#1 := fun e => by
      have := IntOp.cmpi_slt.1 e; rw [hz] at this; omega
    have hst : startWord q = q := by
      unfold startWord; rw [hs]; exact if_neg hlt
    have hnat : q.toInt = (q.toNat : ℤ) := by
      rw [BitVec.toInt_eq_toNat_cond] at h0 ⊢
      split <;> rename_i hc
      · rfl
      · rw [if_neg hc] at h0; have := q.isLt; omega
    refine ⟨hge, ?_, ?_⟩
    · rw [hst, hnat]; simp only [Int.toNat_natCast]; omega
    · omega
  · right
    have hz : (0#32 : BitVec 32).toInt = 0 := by decide
    rw [hz] at h0
    have hne : IntOp.cmpi .sge q 0#32 ≠ 1#1 := fun e => by
      have := IntOp.cmpi_sge.1 e; rw [hz] at this; omega
    refine ⟨?_, ?_⟩
    · revert hne; generalize IntOp.cmpi .sge q 0#32 = b; revert b; decide
    · rw [BitVec.toInt_eq_toNat_cond] at h0
      split at h0 <;> omega

end Cert.PosEnc

end
-- ==== Proof.Row.lean ====
/-
  One batch row of the kernel's block.

  For each of the eight batch rows of a block the body computes the same thing: it loads the row's
  365 position words and the row's 365 x 512 slab of x, builds the 365 x 365 matrix of one-hot
  weights (weight (s, k) is 1 when k is the position of timestep s), multiplies it into the
  resident 365 x 512 table, and adds the product to the slab. rowOut is that computation once,
  and each of the body's stored values is rowOut of the row's loads. Read at an entry (s, d), at
  the exact instance, rowOut is
      x[s, d] + sum over k of hot k (position s) * table[k, d].
-/
import proofs.«410127_j80659485819003_1_alg».proof.Proof.Gen.KernelIdeal.Skeleton
import proofs.«410127_j80659485819003_1_alg».proof.Proof.OneHot
import Idealize.ShloMosaic.PureOps.Ideal.Laws
import Idealize.ShloMosaic.Lib.ValueIdx
import Idealize.ShloMosaic.Lib.ValueLayout
import Idealize.ShloMosaic.Lib.Pipeline.Value

noncomputable section

namespace Cert.PosEnc

open Cert.KernelIdeal Cert.KernelIdeal.Gen Idealize.ShloMosaic Idealize.ShloMosaic.ValueIdx

/-! ## The matrix product read at an entry -/

theorem lhs_ax0 (j : S365x512.Idx) (k : dot_S365x365_S365x512_S365x512_1_0_0_1_n_n.contr.Idx) :
    (dot_S365x365_S365x512_S365x512_1_0_0_1_n_n.lhsIdx j k 0).val = (j 0).val := by
  unfold DotDims.lhsIdx
  rw [dif_neg (show ¬(0 : Fin S365x365.rank) ∈ dot_S365x365_S365x512_S365x512_1_0_0_1_n_n.lhsBatch by decide),
    dif_pos (show (0 : Fin S365x365.rank) ∈ dot_S365x365_S365x512_S365x512_1_0_0_1_n_n.lhsNonContracting by decide)]
  rfl

theorem lhs_ax1 (j : S365x512.Idx) (k : dot_S365x365_S365x512_S365x512_1_0_0_1_n_n.contr.Idx) :
    (dot_S365x365_S365x512_S365x512_1_0_0_1_n_n.lhsIdx j k 1).val = (k ⟨0, Nat.one_pos⟩).val :=
  DotDims.lhsIdx_val_of_single (d := dot_S365x365_S365x512_S365x512_1_0_0_1_n_n) (cl := 1) rfl j k

theorem rhs_ax0 (j : S365x512.Idx) (k : dot_S365x365_S365x512_S365x512_1_0_0_1_n_n.contr.Idx) :
    (dot_S365x365_S365x512_S365x512_1_0_0_1_n_n.rhsIdx j k 0).val = (k ⟨0, Nat.one_pos⟩).val :=
  DotDims.rhsIdx_val_of_single (d := dot_S365x365_S365x512_S365x512_1_0_0_1_n_n) (cr := 0) rfl j k

theorem rhs_ax1 (j : S365x512.Idx) (k : dot_S365x365_S365x512_S365x512_1_0_0_1_n_n.contr.Idx) :
    (dot_S365x365_S365x512_S365x512_1_0_0_1_n_n.rhsIdx j k 1).val = (j 1).val := by
  unfold DotDims.rhsIdx
  rw [dif_neg (show ¬(1 : Fin S365x512.rank) ∈ dot_S365x365_S365x512_S365x512_1_0_0_1_n_n.rhsBatch by decide),
    dif_pos (show (1 : Fin S365x512.rank) ∈ dot_S365x365_S365x512_S365x512_1_0_0_1_n_n.rhsNonContracting by decide)]
  rfl

/-- The weights times the table, accumulated into zero, at entry (s, d): the sum over the 365
    table rows k of weight (s, k) times table (k, d). -/
theorem matmul_entry (lhs : FVec Ideal S365x365 .bf16) (rhs : FVec Ideal S365x512 .bf16) (s : Fin 365) (d : Fin 512) :
    matmul dot_S365x365_S365x512_S365x512_1_0_0_1_n_n none lhs rhs (constant S365x512 .f32 0x00000000#32) (ix2 s d)
      = ∑ k : Fin 365, lhs (ix2 s k) * rhs (ix2 k d) := by
  simp only [matmul]
  rw [Ideal.matmul_constant_zero_apply]
  rw [← Equiv.sum_comp (contrEquiv1 dot_S365x365_S365x512_S365x512_1_0_0_1_n_n 365 rfl rfl).symm]
  refine Finset.sum_congr rfl fun k _ => ?_
  have hk := contrEquiv1_symm_val dot_S365x365_S365x512_S365x512_1_0_0_1_n_n 365 rfl rfl k
  congr 2
  · funext a; apply Fin.ext
    match a with
    | ⟨0, _⟩ => exact lhs_ax0 _ _
    | ⟨1, _⟩ => exact (lhs_ax1 _ _).trans hk
  · funext a; apply Fin.ext
    match a with
    | ⟨0, _⟩ => exact (rhs_ax0 _ _).trans hk
    | ⟨1, _⟩ => exact rhs_ax1 _ _

/-! ## One batch row -/

section Generic
variable {F : FTy → Type} [FloatOps F]

/-- One batch row's result from the resident table, the row's position words and the row's slab of x. -/
def rowOut (tbl : Vec F S365x512 .bf16) (p : Vec F S1x365 .i32) (xr : Vec F S1x365x512 .f32) : FVec F S1x365x512 .f32 :=
  shapeCast S1x365x512 (addf (shapeCast S365x512 xr shapeCasts_S1x365x512_S365x512)
    (matmul dot_S365x365_S365x512_S365x512_1_0_0_1_n_n none
      (truncf .bf16 (sitofp .f32 (extui 32 (cmpi .eq (iota .tc S365x365 32 [1] iota_S365x365_d1_w32)
        (broadcastTo S365x365 (shapeCast S365x1 (shapeCast S365 p shapeCasts_S1x365_S365) shapeCasts_S365_S365x1) broadcasts_S365x1_S365x365))
        natLt_1_32)) bitsLt_bf16_f32)
      (shapeCast S365x512 tbl shapeCasts_S365x512_S365x512)
      (constant S365x512 .f32 0x00000000#32))) shapeCasts_S365x512_S1x365x512

/-- Each of the body's eight stored values is rowOut of its row's loads (the body's text, row by row). -/
theorem pay1_eq (tbl : Vec F S365x512 .bf16) (p : Vec F S1x365 .i32) (xr : Vec F S1x365x512 .f32) :
    k0_pay1 (iota .tc S365x365 32 [1] iota_S365x365_d1_w32) (k0_pay2 tbl) p xr = rowOut tbl p xr := rfl
theorem pay3_eq (tbl : Vec F S365x512 .bf16) (p : Vec F S1x365 .i32) (xr : Vec F S1x365x512 .f32) :
    k0_pay3 tbl p xr = rowOut tbl p xr := rfl
theorem pay4_eq (tbl : Vec F S365x512 .bf16) (p : Vec F S1x365 .i32) (xr : Vec F S1x365x512 .f32) :
    k0_pay4 tbl p xr = rowOut tbl p xr := rfl
theorem pay6_eq (tbl : Vec F S365x512 .bf16) (p : Vec F S1x365 .i32) (xr : Vec F S1x365x512 .f32) :
    k0_pay6 (iota .tc S365x365 32 [1] iota_S365x365_d1_w32) (k0_pay2 tbl) (k0_pay5 p) xr = rowOut tbl p xr := rfl
theorem pay7_eq (tbl : Vec F S365x512 .bf16) (p : Vec F S1x365 .i32) (xr : Vec F S1x365x512 .f32) :
    k0_pay7 (iota .tc S365x365 32 [1] iota_S365x365_d1_w32) (k0_pay2 tbl) p xr = rowOut tbl p xr := rfl
theorem pay9_eq (tbl : Vec F S365x512 .bf16) (p : Vec F S1x365 .i32) (xr : Vec F S1x365x512 .f32) :
    k0_pay9 (k0_pay8 (iota .tc S365x365 32 [1] iota_S365x365_d1_w32) (k0_pay2 tbl) p) xr = rowOut tbl p xr := rfl
theorem pay10_eq (tbl : Vec F S365x512 .bf16) (p : Vec F S1x365 .i32) (xr : Vec F S1x365x512 .f32) :
    k0_pay10 (iota .tc S365x365 32 [1] iota_S365x365_d1_w32) (k0_pay2 tbl) p xr = rowOut tbl p xr := rfl
theorem pay11_eq (tbl : Vec F S365x512 .bf16) (p : Vec F S1x365 .i32) (xr : Vec F S1x365x512 .f32) :
    k0_pay11 (iota .tc S365x365 32 [1] iota_S365x365_d1_w32) (k0_pay2 tbl) p xr = rowOut tbl p xr := rfl

end Generic

/-! ## The row at an entry, at the exact instance -/

/-- The weight matrix at (s, k): the weight hot k of timestep s's position word. -/
theorem weights_entry (p : Vec Ideal S1x365 .i32) (s k : Fin 365) :
    (truncf .bf16 (sitofp (F := Ideal) .f32 (extui 32 (cmpi .eq (iota .tc S365x365 32 [1] iota_S365x365_d1_w32)
        (broadcastTo S365x365 (shapeCast S365x1 (shapeCast S365 p shapeCasts_S1x365_S365) shapeCasts_S365_S365x1) broadcasts_S365x1_S365x365))
        natLt_1_32)) bitsLt_bf16_f32 : FVec Ideal S365x365 .bf16) (ix2 s k) = hot k.val (p (ix2 (0 : Fin 1) s)) := by
  have e1 : broadcastTo S365x365 (shapeCast S365x1 (shapeCast S365 p shapeCasts_S1x365_S365) shapeCasts_S365_S365x1) broadcasts_S365x1_S365x365 (ix2 s k)
      = p (ix2 (0 : Fin 1) s) := by
    refine (broadcastTo_apply _ broadcasts_S365x1_S365x365 (ix2 s k) (ix2 s (0 : Fin 1)) fun a => ?_).trans ?_
    · match a with
      | ⟨0, _⟩ => rfl
      | ⟨1, _⟩ => rfl
    refine (shapeCast_apply _ shapeCasts_S365_S365x1 (ix2 s (0 : Fin 1)) (ix1 s) ?_).trans ?_
    · rw [Shape.rowMajor_val_two, Shape.rowMajor_val_one]
      show s.val = s.val * 1 + 0
      omega
    exact shapeCast_1a_a_apply p shapeCasts_S1x365_S365 s
  show FloatOps.sitofp (F := Ideal) .f32 ((IntOp.cmpi .eq (iota .tc S365x365 32 [1] iota_S365x365_d1_w32 (ix2 s k)) _).setWidth 32) = _
  rw [e1, iota_single_apply]
  rfl

/-- THE ROW AT AN ENTRY: x plus the one-hot weighted sum of the table's column. -/
theorem rowOut_apply (tbl : Vec Ideal S365x512 .bf16) (p : Vec Ideal S1x365 .i32) (xr : Vec Ideal S1x365x512 .f32)
    (u : Fin 1) (s : Fin 365) (d : Fin 512) :
    rowOut tbl p xr (ix3 u s d) = xr (ix3 (0 : Fin 1) s d) + ∑ k : Fin 365, hot k.val (p (ix2 (0 : Fin 1) s)) * tbl (ix2 k d) := by
  unfold rowOut
  rw [shapeCast_ab_1ab_apply, addf_apply, shapeCast_1ab_ab_apply, matmul_entry]
  congr 1
  refine Finset.sum_congr rfl fun k _ => ?_
  rw [weights_entry, shapeCast_self]

end Cert.PosEnc

end
-- ==== Proof.Spec.lean ====
/-
  The result as one function of the three argument arrays.

  out[b, s, d] = x[b, s, d] + sum over the 365 table rows k of hot k (positions[b, s]) * pe[k, d]:
  x plus the table row the position selects, and plus nothing when the position is no row number.
  blockOut is the same function on one 8-batch-row block, and a block cut out of the arrays at
  batch offset 8·o computes the entries of out at batch rows 8·o .. 8·o + 7 (blockOut_eq).
-/
import proofs.«410127_j80659485819003_1_alg».proof.Proof.OneHot
import Idealize.ShloMosaic.Lib.ValueIdx

noncomputable section

namespace Cert.PosEnc

open Idealize.ShloMosaic Idealize.ShloMosaic.ValueIdx

/-- The table column d weighted by the one-hot weights of the position word q. -/
def rowSel (pe : (⟨2, ![365, 512]⟩ : Shape).Idx → EReal) (q : BitVec 32) (d : Fin 512) : EReal :=
  ∑ k : Fin 365, hot k.val q * pe (ix2 k d)

/-- Entry (b, s, d) of the result. -/
def outAt (x : (⟨3, ![256, 365, 512]⟩ : Shape).Idx → EReal) (pos : (⟨2, ![256, 365]⟩ : Shape).Idx → BitVec 32)
    (pe : (⟨2, ![365, 512]⟩ : Shape).Idx → EReal) (b : Fin 256) (s : Fin 365) (d : Fin 512) : EReal :=
  x (ix3 b s d) + rowSel pe (pos (ix2 b s)) d

/-- THE RESULT ARRAY as a function of the argument arrays. -/
def out (x : (⟨3, ![256, 365, 512]⟩ : Shape).Idx → EReal) (pos : (⟨2, ![256, 365]⟩ : Shape).Idx → BitVec 32)
    (pe : (⟨2, ![365, 512]⟩ : Shape).Idx → EReal) : (⟨3, ![256, 365, 512]⟩ : Shape).Idx → EReal :=
  fun i => outAt x pos pe (i 0) (i 1) (i 2)

theorem out_ix3 (x : (⟨3, ![256, 365, 512]⟩ : Shape).Idx → EReal) (pos : (⟨2, ![256, 365]⟩ : Shape).Idx → BitVec 32)
    (pe : (⟨2, ![365, 512]⟩ : Shape).Idx → EReal) (b : Fin 256) (s : Fin 365) (d : Fin 512) :
    out x pos pe (ix3 b s d) = outAt x pos pe b s d := rfl

/-- Entry (r, s, d) of one 8-row block's result, from the block's slab of x, its position words and the table. -/
def blockAt (x0 : (⟨3, ![8, 365, 512]⟩ : Shape).Idx → EReal) (x1 : (⟨2, ![8, 365]⟩ : Shape).Idx → BitVec 32)
    (x2 : (⟨2, ![365, 512]⟩ : Shape).Idx → EReal) (r : Fin 8) (s : Fin 365) (d : Fin 512) : EReal :=
  x0 (ix3 r s d) + rowSel x2 (x1 (ix2 r s)) d

/-- One block's result. -/
def blockOut (x0 : (⟨3, ![8, 365, 512]⟩ : Shape).Idx → EReal) (x1 : (⟨2, ![8, 365]⟩ : Shape).Idx → BitVec 32)
    (x2 : (⟨2, ![365, 512]⟩ : Shape).Idx → EReal) : (⟨3, ![8, 365, 512]⟩ : Shape).Idx → EReal :=
  fun j => blockAt x0 x1 x2 (j 0) (j 1) (j 2)

theorem blockOut_ix3 (x0 : (⟨3, ![8, 365, 512]⟩ : Shape).Idx → EReal) (x1 : (⟨2, ![8, 365]⟩ : Shape).Idx → BitVec 32)
    (x2 : (⟨2, ![365, 512]⟩ : Shape).Idx → EReal) (r : Fin 8) (s : Fin 365) (d : Fin 512) :
    blockOut x0 x1 x2 (ix3 r s d) = blockAt x0 x1 x2 r s d := rfl

end Cert.PosEnc

end
-- ==== Proof.KernelValue.lean ====
/-
  What the kernel leaves in the result array: the result function `out` of the argument arrays.

  A block of the body's output buffer is tiled by eight stores, one per batch row, each holding
  rowOut of that row's loads; so the buffer after the body is blockOut of the three input blocks
  (out0_3_eq). Grid point t stages batch rows 8t .. 8t+7 of x and of the positions, and the whole
  table (which the host has only changed the float format of: the identity on exact values), and
  writes back rows 8t .. 8t+7 of the result; these blocks cover the array, so the array ends at
  `out` (final).
-/
import proofs.«410127_j80659485819003_1_alg».proof.Proof.Gen.KernelIdeal.Value
import proofs.«410127_j80659485819003_1_alg».proof.Proof.Row
import proofs.«410127_j80659485819003_1_alg».proof.Proof.Spec
import Idealize.ShloMosaic.Lib.Pipeline.Value
import Idealize.ShloMosaic.Lib.StableHlo.Run

set_option maxRecDepth 16384

noncomputable section

namespace Cert.PosEnc

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

/-! ## One store of the body is a row of blockOut -/

/-- The store of batch row r: rowOut of the row's loads, at each index of its rectangle, is blockOut there. -/
theorem piece_eq (x0 : Vec Ideal S8x365x512 .f32) (x1 : Vec Ideal S8x365 .i32) (x2 : Vec Ideal S365x512 .bf16)
    (r : ℕ) (hr : r < 8)
    (inb0 : ∀ a, (![0, 0] : Fin 2 → Nat) a + S365x512.size a ≤ S365x512.size a)
    (inb2 : ∀ a, (![r, 0] : Fin 2 → Nat) a + S1x365.size a ≤ S8x365.size a)
    (inb3 : ∀ a, (![r, 0, 0] : Fin 3 → Nat) a + S1x365x512.size a ≤ S8x365x512.size a)
    (x : S1x365x512.Idx) :
    rowOut (View.ld x2 (Rect.unit (s := S365x512) ![0, 0] S365x512.size inb0))
        (View.ld x1 (Rect.unit (s := S8x365) ![r, 0] S1x365.size inb2))
        (View.ld x0 (Rect.unit (s := S8x365x512) ![r, 0, 0] S1x365x512.size inb3)) x
      = blockOut x0 x1 x2 ((Rect.unit (s := S8x365x512) ![r, 0, 0] S1x365x512.size inb3).emb x) := by
  obtain ⟨u, s, d, rfl⟩ : ∃ (u : Fin 1) (s : Fin 365) (d : Fin 512), x = ix3 u s d := ⟨x 0, x 1, x 2, eq_ix3 x⟩
  have hu : u.val = 0 := by omega
  have e3 : (Rect.unit (s := S8x365x512) ![r, 0, 0] S1x365x512.size inb3).emb (ix3 u s d) = ix3 (⟨r, hr⟩ : Fin 8) s d := by
    funext a; apply Fin.ext
    match a with
    | ⟨0, _⟩ => show r + 1 * u.val = r; omega
    | ⟨1, _⟩ => show 0 + 1 * s.val = s.val; omega
    | ⟨2, _⟩ => show 0 + 1 * d.val = d.val; omega
  have l0 : View.ld x0 (Rect.unit (s := S8x365x512) ![r, 0, 0] S1x365x512.size inb3) (ix3 (0 : Fin 1) s d) = x0 (ix3 (⟨r, hr⟩ : Fin 8) s d) := by
    show x0 _ = x0 _
    congr 1
    funext a; apply Fin.ext
    match a with
    | ⟨0, _⟩ => show r + 1 * 0 = r; omega
    | ⟨1, _⟩ => show 0 + 1 * s.val = s.val; omega
    | ⟨2, _⟩ => show 0 + 1 * d.val = d.val; omega
  have l1 : View.ld x1 (Rect.unit (s := S8x365) ![r, 0] S1x365.size inb2) (ix2 (0 : Fin 1) s) = x1 (ix2 (⟨r, hr⟩ : Fin 8) s) := by
    show x1 _ = x1 _
    congr 1
    funext a; apply Fin.ext
    match a with
    | ⟨0, _⟩ => show r + 1 * 0 = r; omega
    | ⟨1, _⟩ => show 0 + 1 * s.val = s.val; omega
  have l2 : ∀ k : Fin 365, View.ld x2 (Rect.unit (s := S365x512) ![0, 0] S365x512.size inb0) (ix2 k d) = x2 (ix2 k d) := fun k => by
    show x2 _ = x2 _
    congr 1
    funext a; apply Fin.ext
    match a with
    | ⟨0, _⟩ => show 0 + 1 * k.val = k.val; omega
    | ⟨1, _⟩ => show 0 + 1 * d.val = d.val; omega
  rw [rowOut_apply, e3, blockOut_ix3, l0, l1]
  unfold blockAt rowSel
  congr 1
  exact Finset.sum_congr rfl fun k _ => by rw [l2 k]

/-- THE BODY'S OUTPUT BUFFER is blockOut of its three input blocks. -/
theorem out0_3_eq (x0 : Vec Ideal S8x365x512 .f32) (x1 : Vec Ideal S8x365 .i32) (x2 : Vec Ideal S365x512 .bf16) :
    out0_3 (F := Ideal) x0 x1 x2 = blockOut x0 x1 x2 := by
  funext y
  show View.canon ([⟨r0_16, rowOut (View.ld x2 r0_0) (View.ld x1 r0_15) (View.ld x0 r0_16)⟩,
      ⟨r0_14, rowOut (View.ld x2 r0_0) (View.ld x1 r0_13) (View.ld x0 r0_14)⟩,
      ⟨r0_12, rowOut (View.ld x2 r0_0) (View.ld x1 r0_11) (View.ld x0 r0_12)⟩,
      ⟨r0_10, rowOut (View.ld x2 r0_0) (View.ld x1 r0_9) (View.ld x0 r0_10)⟩,
      ⟨r0_8, rowOut (View.ld x2 r0_0) (View.ld x1 r0_7) (View.ld x0 r0_8)⟩,
      ⟨r0_6, rowOut (View.ld x2 r0_0) (View.ld x1 r0_5) (View.ld x0 r0_6)⟩,
      ⟨r0_4, rowOut (View.ld x2 r0_0) (View.ld x1 r0_3) (View.ld x0 r0_4)⟩,
      ⟨r0_2, rowOut (View.ld x2 r0_0) (View.ld x1 r0_1) (View.ld x0 r0_2)⟩] : List (View.Piece (Elt Ideal) S8x365x512 .f32)) y
    = blockOut x0 x1 x2 y
  refine View.canon_apply_of_pieces (Val := Elt Ideal) (e := .f32) (blockOut x0 x1 x2) _ (fun p hp x => ?_) y (cover0_3 _ _ _ _ _ _ _ _ y)
  simp only [List.mem_cons, List.not_mem_nil, or_false] at hp
  rcases hp with rfl | rfl | rfl | rfl | rfl | rfl | rfl | rfl
  · exact piece_eq x0 x1 x2 7 (by omega) _ _ _ x
  · exact piece_eq x0 x1 x2 6 (by omega) _ _ _ x
  · exact piece_eq x0 x1 x2 5 (by omega) _ _ _ x
  · exact piece_eq x0 x1 x2 4 (by omega) _ _ _ x
  · exact piece_eq x0 x1 x2 3 (by omega) _ _ _ x
  · exact piece_eq x0 x1 x2 2 (by omega) _ _ _ x
  · exact piece_eq x0 x1 x2 1 (by omega) _ _ _ x
  · exact piece_eq x0 x1 x2 0 (by omega) _ _ _ x

/-! ## From blocks to the array -/

variable (m : (ℓ : Loc nD τ sig) → Buf (Elt Ideal) ℓ) (ρ : Dev nD → PrngReg)

/-- The table the region stages is the table argument: the one host operation before the region
    only changes its float format, which is the identity on exact values. -/
theorem table_eq (c : Dev nD) :
    (V m c main_v0 : S365x512.Idx → EReal) = m ((c : Thread nD τ).loc main_arg2) := by
  dsimp only [Gen.V, Gen.hostOps0]
  after_results
  rfl

/-- The printed index maps, decided over the 32 grid points: point t stages batch-row block t of x, of
    the positions and of the result, and block (0, 0) — the whole — of the table. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0)

/-- WHAT POINT t WRITES BACK is block t of `out` of the arrays as the region finds them. -/
theorem flushed_eq (c : Dev nD) (t : Fin cfg0.N) :
    (dats m 0 c).flushed 3 t = ((cfg0.win 3).blk t).view.read (Elt Ideal)
      (out (V m c main_arg0) (V m c main_arg1) (V m c main_v0)) := by
  rw [flushed3, out0_3_eq]
  obtain ⟨e00, e01, e02, e10, e11, e20, e21, e30, e31, e32⟩ := idx_facts t
  have ht : t.val < 32 := lt_of_lt_of_eq t.isLt N_0
  funext j
  obtain ⟨r, s, d, rfl⟩ : ∃ (r : Fin 8) (s : Fin 365) (d : Fin 512), j = ix3 r s d := ⟨j 0, j 1, j 2, eq_ix3 j⟩
  have hb : t.val * 8 + r.val < 256 := by have := r.isLt; omega
  show blockOut (iblk m c 0 t) (iblk m c 1 t) (iblk m c 2 t) (ix3 r s d)
    = out (V m c main_arg0) (V m c main_arg1) (V m c main_v0) (((cfg0.win 3).blk t).view.emb (ix3 r s d))
  have h3 : ((cfg0.win 3).blk t).view.emb (ix3 r s d) = ix3 (⟨t.val * 8 + r.val, hb⟩ : Fin 256) s d := by
    funext a; apply Fin.ext
    match a with
    | ⟨0, _⟩ => show win0_3.index t (0 : Fin 3) * 8 + 1 * r.val = t.val * 8 + r.val; omega
    | ⟨1, _⟩ => show win0_3.index t (1 : Fin 3) * 365 + 1 * s.val = s.val; omega
    | ⟨2, _⟩ => show win0_3.index t (2 : Fin 3) * 512 + 1 * d.val = d.val; omega
  have h0 : iblk m c 0 t (ix3 r s d) = V m c main_arg0 (ix3 (⟨t.val * 8 + r.val, hb⟩ : Fin 256) s d) := by
    show V m c main_arg0 (((cfg0.win 0).blk t).view.emb (ix3 r s d)) = _
    refine congrArg (fun i : S256x365x512.Idx => V m c main_arg0 i) ?_
    funext a; apply Fin.ext
    match a with
    | ⟨0, _⟩ => show win0_0.index t (0 : Fin 3) * 8 + 1 * r.val = t.val * 8 + r.val; omega
    | ⟨1, _⟩ => show win0_0.index t (1 : Fin 3) * 365 + 1 * s.val = s.val; omega
    | ⟨2, _⟩ => show win0_0.index t (2 : Fin 3) * 512 + 1 * d.val = d.val; omega
  have h1 : iblk m c 1 t (ix2 r s) = V m c main_arg1 (ix2 (⟨t.val * 8 + r.val, hb⟩ : Fin 256) s) := by
    show V m c main_arg1 (((cfg0.win 1).blk t).view.emb (ix2 r s)) = _
    refine congrArg (fun i : S256x365.Idx => V m c main_arg1 i) ?_
    funext a; apply Fin.ext
    match a with
    | ⟨0, _⟩ => show win0_1.index t (0 : Fin 2) * 8 + 1 * r.val = t.val * 8 + r.val; omega
    | ⟨1, _⟩ => show win0_1.index t (1 : Fin 2) * 365 + 1 * s.val = s.val; omega
  have h2 : ∀ k : Fin 365, iblk m c 2 t (ix2 k d) = V m c main_v0 (ix2 k d) := fun k => by
    show V m c main_v0 (((cfg0.win 2).blk t).view.emb (ix2 k d)) = _
    refine congrArg (fun i : S365x512.Idx => V m c main_v0 i) ?_
    funext a; apply Fin.ext
    match a with
    | ⟨0, _⟩ => show win0_2.index t (0 : Fin 2) * 365 + 1 * k.val = k.val; omega
    | ⟨1, _⟩ => show win0_2.index t (1 : Fin 2) * 512 + 1 * d.val = d.val; omega
  rw [h3, out_ix3, blockOut_ix3]
  unfold blockAt outAt rowSel
  rw [h0, h1]
  congr 1
  exact Finset.sum_congr rfl fun k _ => by rw [h2 k]

/-- An index of the result array is in point t's block iff each coordinate is in the block's range. -/
theorem mem_blk (t : Fin cfg0.N) (i : S256x365x512.Idx) :
    i ∈ ((cfg0.win 3).blk t).view.set ↔ ∀ a : Fin 3, win0_3.index t a * S8x365x512.size a ≤ (i a).val
      ∧ (i a).val < win0_3.index t a * S8x365x512.size a + S8x365x512.size a := by
  show i ∈ ((View.whole main_v1).slice (win0_3.rect t)).set ↔ _
  rw [View.set_slice_whole, Rect.mem_set_unit]
  exact Iff.rfl

/-- Every index of the result array is in the block of the point that owns its batch row: point (row / 8). -/
theorem cover (i : S256x365x512.Idx) :
    ∃ t : Fin cfg0.N, (cfg0.win 3).flush t = true ∧ i ∈ ((cfg0.win 3).blk t).view.set := by
  have hi0 : (i 0).val < 256 := (i 0).isLt
  have hi1 : (i 1).val < 365 := (i 1).isLt
  have hi2 : (i 2).val < 512 := (i 2).isLt
  let t : Fin cfg0.N := ⟨(i 0).val / 8, by rw [show cfg0.N = 32 from N_0]; omega⟩
  obtain ⟨-, -, -, -, -, -, -, e30, e31, e32⟩ := idx_facts t
  have et : t.val = (i 0).val / 8 := rfl
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 365 ≤ (i 1).val ∧ (i 1).val < win0_3.index t (1 : Fin 3) * 365 + 365; omega
  | ⟨2, _⟩ => show win0_3.index t (2 : Fin 3) * 512 ≤ (i 2).val ∧ (i 2).val < win0_3.index t (2 : Fin 3) * 512 + 512; omega

/-- THE RESULT ARRAY after the run is `out` of the argument arrays. -/
theorem final (c : Dev nD) :
    (dats m 0 c).arrAt 3 cfg0.N = out (m ((c : Thread nD τ).loc main_arg0)) (m ((c : Thread nD τ).loc main_arg1)) (m ((c : Thread nD τ).loc main_arg2)) := by
  have h := (dats m 0 c).arrAt_eq_of_cover 3 (out (V m c main_arg0) (V m c main_arg1) (V m c main_v0)) (fun t _ => flushed_eq m c t) cover
  rw [h, V_main_arg0, V_main_arg1, table_eq]

/-- The kernel's run, with the result array named: `out` of the arguments, which end unchanged. -/
theorem kernel_run : θ_run defs (onTc (τ := τ) (main (F := Ideal))) ⟨m, fun _ => 0, ρ⟩ fun r => ∀ c : Dev nD,
      r.2.mem ((c : Thread nD τ).loc main_v1) = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.PosEnc

end
-- ==== Proof.RefValue.lean ====
/-
  The reference, read at an entry, is the result function `out`.

  The reference keeps a position that is ≥ 0 and replaces a negative one by 0; wraps the kept
  position by 365 were it negative (it is not); gathers the table row at that start index — a
  gather clamps the start index into [0, 364] —; multiplies the gathered row by the mask bit
  "position ≥ 0" read as 0.0 or 1.0; and adds x. Under the precondition every position is below
  365, so where the mask is 1 the row read is the position's own, and where the mask is 0 the
  product is 0: in both cases the one-hot weighted sum of `out` (OneHot's sum_hot and ref_word).
-/
import proofs.«410127_j80659485819003_1_alg».proof.Proof.Gen.ReferenceIdeal.Read
import proofs.«410127_j80659485819003_1_alg».proof.Proof.Spec
import Idealize.ShloMosaic.PureOps.Ideal.Laws
import Idealize.ShloMosaic.Lib.ValueIdx

noncomputable section

namespace Cert.PosEnc

open Cert.ReferenceIdeal Cert.ReferenceIdeal.Gen Cert.ReferenceIdeal.Read Idealize.ShloMosaic Idealize.ShloMosaic.ValueIdx

/-- THE GATHER AT (b, s, d): the table at row "start index (b, s) read signed and clamped into [0, 364]", column d. -/
theorem gather_rows_apply {α : Type} (x : S365x512.Idx → α) (idx : IVec S256x365x1 32) (b : Fin 256) (s : Fin 365) (d : Fin 512) :
    Host.gather gather_S365x512_S256x365x1_S256x365x512_2_0_n_n_0_2_1512 x idx (ix3 b s d)
      = x (ix2 (⟨min (idx (ix3 b s (0 : Fin 1))).toInt.toNat (365 - 1), by omega⟩ : Fin 365) d) := by
  unfold Host.gather
  congr 1
  funext a
  refine Fin.ext ?_
  match a with
  | ⟨0, _⟩ =>
    show gather_S365x512_S256x365x1_S256x365x512_2_0_n_n_0_2_1512.start (ix3 b s d) idx (0 : Fin 2)
      + gather_S365x512_S256x365x1_S256x365x512_2_0_n_n_0_2_1512.batchCoord (ix3 b s d) (0 : Fin 2)
      + gather_S365x512_S256x365x1_S256x365x512_2_0_n_n_0_2_1512.offCoord (ix3 b s d) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S365x512_S256x365x1_S256x365x512_2_0_n_n_0_2_1512.startIndexMap from List.mem_singleton.mpr rfl)]
    have hsi : gather_S365x512_S256x365x1_S256x365x512_2_0_n_n_0_2_1512.siIdx (ix3 b s d)
        ⟨List.idxOf (0 : Fin 2) gather_S365x512_S256x365x1_S256x365x512_2_0_n_n_0_2_1512.startIndexMap,
          List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S365x512_S256x365x1_S256x365x512_2_0_n_n_0_2_1512.start (ix3 b s d) idx (1 : Fin 2)
      + gather_S365x512_S256x365x1_S256x365x512_2_0_n_n_0_2_1512.batchCoord (ix3 b s d) (1 : Fin 2)
      + gather_S365x512_S256x365x1_S256x365x512_2_0_n_n_0_2_1512.offCoord (ix3 b s d) (1 : Fin 2) = d.val
    rw [GatherDims.batchCoord_eq_zero _ _ _ List.not_mem_nil]
    unfold GatherDims.start GatherDims.offCoord
    rw [dif_neg (show ¬ (1 : Fin 2) ∈ gather_S365x512_S256x365x1_S256x365x512_2_0_n_n_0_2_1512.startIndexMap by decide),
      dif_pos (show (1 : Fin 2) ∈ gather_S365x512_S256x365x1_S256x365x512_2_0_n_n_0_2_1512.sKept by decide)]
    simp only [Nat.zero_add, Nat.add_zero]
    rfl

/-- The index bookkeeping of the reference's two broadcasts along the new unit axis. -/
theorem idx8 (b : Fin 256) (s : Fin 365) : idx_main_v8 (ix3 b s (0 : Fin 1)) = ix2 b s :=
  funext fun a => Fin.ext (by match a with | ⟨0, _⟩ => rfl | ⟨1, _⟩ => rfl)

theorem idx12 (b : Fin 256) (s : Fin 365) (d : Fin 512) : idx_main_v10 (idx_main_v12 (ix3 b s d)) = ix2 b s :=
  funext fun a => Fin.ext (by match a with | ⟨0, _⟩ => rfl | ⟨1, _⟩ => rfl)

/-- The position the reference keeps, entry by entry. -/
theorem safe_word (x1 : IVec S256x365 32) (j : S256x365.Idx) : val_main_v2 (F := Ideal) x1 j = safeWord (x1 j) := by
  rw [val_main_v2_apply, val_main_v1_apply, val_main_v0_apply, val_main_c_apply, val_main_call0_v1_apply,
    val_main_call0_v0_apply, val_main_c_0_apply]
  rfl

/-- The start index the reference hands the gather, entry by entry. -/
theorem start_word (x1 : IVec S256x365 32) (b : Fin 256) (s : Fin 365) :
    val_main_v8 (F := Ideal) x1 (ix3 b s (0 : Fin 1)) = startWord (x1 (ix2 b s)) := by
  rw [val_main_v8_apply, idx8, val_main_v7_apply, val_main_v4_apply, val_main_v6_apply, safe_word, val_main_v3_apply,
    val_main_c_1_apply, val_main_v5_apply, val_main_c_2_apply]
  rfl

/-- The reference's mask at an entry: the bit "position ≥ 0" read as 0.0 or 1.0. -/
theorem mask_word (x1 : IVec S256x365 32) (b : Fin 256) (s : Fin 365) (d : Fin 512) :
    val_main_v12 (F := Ideal) x1 (ix3 b s d) = (((IntOp.cmpi .sge (x1 (ix2 b s)) 0#32).toNat : ℝ) : EReal) := by
  rw [val_main_v12_apply, val_main_v11_apply, val_main_v10_apply, idx12, val_main_v1_apply, val_main_v0_apply, val_main_c_apply]
  rfl

/-- The reference at an entry whose position is below 365. -/
theorem ref_entry (x0 : FVec Ideal S256x365x512 .f32) (x1 : IVec S256x365 32) (x2 : FVec Ideal S365x512 .f32)
    (b : Fin 256) (s : Fin 365) (d : Fin 512) (hq : (x1 (ix2 b s)).toInt < 365) :
    val_main_v14 (F := Ideal) x0 x1 x2 (ix3 b s d) = outAt x0 x1 x2 b s d := by
  have h9 : val_main_v9 (F := Ideal) x1 x2 (ix3 b s d)
      = x2 (ix2 (⟨min (startWord (x1 (ix2 b s))).toInt.toNat (365 - 1), by omega⟩ : Fin 365) d) := by
    unfold val_main_v9
    refine (gather_rows_apply x2 (val_main_v8 (F := Ideal) x1) b s d).trans ?_
    exact congrArg (fun n : Fin 365 => x2 (ix2 n d)) (Fin.ext (congrArg (fun w : BitVec 32 => min w.toInt.toNat (365 - 1)) (start_word x1 b s)))
  have h12 := mask_word x1 b s d
  have hs := sum_hot (fun k => x2 (ix2 k d)) (x1 (ix2 b s))
  show x0 (ix3 b s d) + val_main_v9 (F := Ideal) x1 x2 (ix3 b s d) * val_main_v12 (F := Ideal) x1 (ix3 b s d)
    = x0 (ix3 b s d) + ∑ k : Fin 365, hot k.val (x1 (ix2 b s)) * x2 (ix2 k d)
  rw [h9, h12, hs]
  congr 1
  rcases ref_word (x1 (ix2 b s)) hq with ⟨hm, hi, hlt⟩ | ⟨hm, hlt⟩
  · rw [hm, dif_pos hlt]
    have e : (⟨min (startWord (x1 (ix2 b s))).toInt.toNat (365 - 1), by omega⟩ : Fin 365) = ⟨(x1 (ix2 b s)).toNat, hlt⟩ := Fin.ext hi
    rw [e]
    simp
  · rw [hm, dif_neg hlt]
    simp

/-- THE REFERENCE IS `out` when every position is below 365. -/
theorem ref_eq_out (x0 : FVec Ideal S256x365x512 .f32) (x1 : IVec S256x365 32) (x2 : FVec Ideal S365x512 .f32)
    (hpos : ∀ j : S256x365.Idx, (x1 j).toInt < 365) :
    val_main_v14 (F := Ideal) x0 x1 x2 = out x0 x1 x2 := by
  funext i
  obtain ⟨b, s, d, rfl⟩ : ∃ (b : Fin 256) (s : Fin 365) (d : Fin 512), i = ix3 b s d := ⟨i 0, i 1, i 2, eq_ix3 i⟩
  rw [out_ix3]
  exact ref_entry x0 x1 x2 b s d (hpos _)

end Cert.PosEnc

end
-- ==== Proof.lean ====
/-
  The kernel adds to x, at every (batch, timestep), the positional-encoding table row its position
  selects — built as a one-hot 365 x 365 weight matrix times the table on the matrix unit — and
  adds nothing where the position matches no row. The reference gathers the row at the position
  kept when it is ≥ 0 (0 otherwise) and multiplies by the 0/1 mask "position ≥ 0".

  Both are, entry by entry, x[b, s, d] + sum over table rows k of [k = positions[b, s]] * pe[k, d]
  (Spec's `out`): the kernel by reading the matrix product as that sum (Row, KernelValue), the
  reference because a clamped gather at a start index in [0, 364] reads the index's own row and
  the mask zeroes the product where the position is negative (OneHot, RefValue). A position of
  365 or more selects no row in the kernel, while the reference's gather would clamp it to row
  364: the precondition keeps every position below 365, the range in which the reference's own
  row index is inside the table (PosRange reads that off the precondition). No finiteness is used:
  on the extended reals 0 times anything is 0.

  The three frames are the generated ones (the reference's is its generated run with the value
  dropped), and the idealization rewrote nothing, so its conjunct is trivial.
-/
import proofs.«410127_j80659485819003_1_alg».proof.Defs
import proofs.«410127_j80659485819003_1_alg».proof.Proof.Gen.Kernel
import proofs.«410127_j80659485819003_1_alg».proof.Proof.Gen.Kernel.Skeleton
import proofs.«410127_j80659485819003_1_alg».proof.Proof.Gen.Kernel.Launch
import proofs.«410127_j80659485819003_1_alg».proof.Proof.Gen.Kernel.Points
import proofs.«410127_j80659485819003_1_alg».proof.Proof.Gen.Kernel.Frame
import proofs.«410127_j80659485819003_1_alg».proof.Proof.Gen.KernelIdeal
import proofs.«410127_j80659485819003_1_alg».proof.Proof.Gen.KernelIdeal.Skeleton
import proofs.«410127_j80659485819003_1_alg».proof.Proof.Gen.KernelIdeal.Launch
import proofs.«410127_j80659485819003_1_alg».proof.Proof.Gen.KernelIdeal.Points
import proofs.«410127_j80659485819003_1_alg».proof.Proof.Gen.KernelIdeal.Frame
import proofs.«410127_j80659485819003_1_alg».proof.Proof.Gen.ReferenceIdeal
import proofs.«410127_j80659485819003_1_alg».proof.Proof.Gen.Pre_finite_inputs
import proofs.«410127_j80659485819003_1_alg».proof.Proof.Gen.KernelIdeal.Value
import proofs.«410127_j80659485819003_1_alg».proof.Proof.Gen.ReferenceIdeal.Run
import proofs.«410127_j80659485819003_1_alg».proof.Proof.Gen.ReferenceIdeal.Read
import proofs.«410127_j80659485819003_1_alg».proof.Proof.PosRange
import proofs.«410127_j80659485819003_1_alg».proof.Proof.KernelValue
import proofs.«410127_j80659485819003_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel at exact values. -/
theorem frame_ki : Cert.frame_KernelIdeal := fun m ρ _ => Cert.KernelIdeal.Gen.frame m ρ

/-- So does the reference: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `out` of the (agreeing) argument arrays: the kernel by its
    blocks (KernelValue's kernel_run), the reference because under the precondition every position is
    below 365 (PosRange's pos_lt) and then its term is `out` (RefValue's ref_eq_out). -/
theorem algebraic : Cert.algebraic_KernelIdeal_ReferenceIdeal := by
  intro m ρ m' ρ' hpre hagree
  refine ⟨_, Cert.PosEnc.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  exact Cert.PosEnc.ref_eq_out _ _ _ (fun j => Cert.PosEnc.pos_lt _ _ _ (hpre c) j)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
